-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S4096x1024 : Shape := ⟨2, ![4096, 1024]⟩
abbrev S4096 : Shape := ⟨1, ![4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x1024 .f32) (main_arg1 : FVec F S4096x1024 .f32) (main_arg2 : FVec F S4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x1024 : Shape := ⟨2, ![8192, 1024]⟩
abbrev S4096x1024 : Shape := ⟨2, ![4096, 1024]⟩
abbrev S4096 : Shape := ⟨1, ![4096]⟩
abbrev S1x4096 : Shape := ⟨2, ![1, 4096]⟩
abbrev S1024x1024 : Shape := ⟨2, ![1024, 1024]⟩
abbrev S512x1024 : Shape := ⟨2, ![512, 1024]⟩
abbrev S1x512 : Shape := ⟨2, ![1, 512]⟩
abbrev S1024x512 : Shape := ⟨2, ![1024, 512]⟩
abbrev S512 : Shape := ⟨1, ![512]⟩

abbrev nBuf : Space → Nat
  | .hbm => 5
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096, .f32⟩
  | .hbm, ⟨3, _⟩ => ⟨S1x4096, .f32⟩
  | .hbm, ⟨4, _⟩ => ⟨S1x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4096_S1x4096 : S4096.ShapeCasts S1x4096
  inb_S1x512_S1x512_0_0 : ∀ a, (![0, 0] : Fin 2 → Nat) a + S1x512.size a ≤ S1x512.size a
  h_S1x512 : 0 < S1x512.numel
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  transposes_S512x1024_p1_0_S1024x512 : S512x1024.Transposes [1, 0] S1024x512
  shapeCasts_S1x512_S1x512 : S1x512.ShapeCasts S1x512
  broadcasts_S1x512_S1024x512 : S1x512.Broadcasts S1024x512
  reduces_S1024x512_S512 : S1024x512.Reduces [0] S512
  shapeCasts_S512_S1x512 : S512.ShapeCasts S1x512
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S4096x1024 : Shape := ⟨2, ![4096, 1024]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4096x1024, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S4096, .f32⟩
  | .hbm, ⟨26, _⟩ => ⟨S1x4096, .f32⟩
  | .hbm, ⟨27, _⟩ => ⟨S_, .f32⟩
  | .hbm, ⟨28, _⟩ => ⟨S1x4096, .f32⟩
  | .hbm, ⟨29, _⟩ => ⟨S1x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  reducesTo_S8192x4096_S4096_d0 : S8192x4096.ReducesTo [0] S4096
  h_S_ : 0 < S_.numel
  bcast_S_S1x4096 : S_.BroadcastsInDim S1x4096 (![] : Fin 0 → Fin S1x4096.rank)
  dot_S8192x1024_S4096x1024_S8192x4096_1_1_0_0_n_n_wf : DotDims.WF S8192x1024 S4096x1024 S8192x4096 [1] [1] [0] [0] [] []

variable [Facts₀]

def dot_S8192x1024_S4096x1024_S8192x4096_1_1_0_0_n_n : DotDims S8192x1024 S4096x1024 S8192x4096 where
  lhsContracting := [1]
  rhsContracting := [1]
  lhsNonContracting := [0]
  rhsNonContracting := [0]
  lhsBatch := []
  rhsBatch := []
  wf := dot_S8192x1024_S4096x1024_S8192x4096_1_1_0_0_n_n_wf

class Facts : Prop extends Facts₀ where

variable [Facts]
-- ==== Proof.TileSum.lean ====
/-
  The arithmetic both programs share, on the extended reals.

  Both compute, for every neuron `n`, the mean over the 8192 rows `t` of `gelu (s t n)`, where
  `s t n = ∑ k, x t k * W n k + b n` and `gelu` is the tanh form
  `s * (1/2 * (1 + tanh (c₁ * (s + c₂ * s³))))`. They differ in three places only:
  the cube is spelt `s * (s * s)` on one side and `(s * s) * s` on the other; the rows are summed
  in eight consecutive tiles of 1024 on one side and all at once on the other; and the mean is the
  product with `2⁻¹³` on one side and the quotient by `8192` on the other. None of the three needs
  the inputs to be finite: addition and multiplication of extended reals are commutative and
  associative, and dividing by the real `8192` is multiplying by its reciprocal on every extended real.
-/
import Idealize.ShloMosaic.PureOps.Ideal
import Idealize.ShloMosaic.PureOps.Ideal.Laws

noncomputable section

namespace Cert.TileSum

open Idealize.ShloMosaic

/-- The pattern `0x39000000` denotes `2⁻¹³ = 1/8192`. -/
theorem ofBits_inv_8192 : Ideal.ofBits .f32 0x39000000#32 = ((1 / 8192 : ℝ) : EReal) := by
  simp [Ideal.ofBits, Ideal.ieee, -EReal.coe_mul]; norm_num

/-- The pattern `0x46000000` denotes `8192`. -/
theorem ofBits_8192 : Ideal.ofBits .f32 0x46000000#32 = ((8192 : ℝ) : EReal) := by
  simp [Ideal.ofBits, Ideal.ieee, -EReal.coe_mul]; norm_num

/-- The tanh form of gelu at one pre-activation `s`, the cube spelt `s * (s * s)`; its four literals are kept as
    patterns (both programs spell the same four words). -/
def gelu (s : EReal) : EReal :=
  s * (Ideal.ofBits .f32 0x3F000000#32 * (Ideal.ofBits .f32 0x3F800000#32
    + Ideal.tanh (Ideal.ofBits .f32 0x3F4C422A#32 * (s + Ideal.ofBits .f32 0x3D372713#32 * (s * (s * s))))))

/-- The same with the cube spelt `(s * s) * s`: multiplication commutes. -/
theorem gelu_cube_comm (s : EReal) :
    s * (Ideal.ofBits .f32 0x3F000000#32 * (Ideal.ofBits .f32 0x3F800000#32
      + Ideal.tanh (Ideal.ofBits .f32 0x3F4C422A#32 * (s + Ideal.ofBits .f32 0x3D372713#32 * ((s * s) * s))))) = gelu s := by
  unfold gelu
  rw [mul_comm (s * s) s]

/-- A sum over `m * n` consecutive places is the sum over `m` consecutive tiles of the sums over each tile's `n` places. -/
theorem sum_tiles {M : Type*} [AddCommMonoid M] (m n : ℕ) (f : Fin (m * n) → M) :
    ∑ s : Fin m, ∑ p : Fin n, f ⟨n * s.val + p.val, by
      have hs := s.isLt; have hp := p.isLt
      calc n * s.val + p.val < n * s.val + n := by omega
        _ = n * (s.val + 1) := by ring
        _ ≤ n * m := Nat.mul_le_mul_left n hs
        _ = m * n := Nat.mul_comm n m⟩ = ∑ t : Fin (m * n), f t := by
  rw [← Equiv.sum_comp finProdFinEquiv f, Fintype.sum_prod_type]
  refine Finset.sum_congr rfl fun s _ => Finset.sum_congr rfl fun p _ => congrArg f (Fin.ext ?_)
  show n * s.val + p.val = p.val + n * s.val
  omega

/-- The scaled sum of the eight tiles' sums is the mean over all rows: `(0 + ∑ₛ (0 + ∑ₚ f (1024 s + p))) · 2⁻¹³ = (0 + ∑ₜ f t) / 8192`. -/
theorem scaled_tile_sums_eq_mean (f : Fin 8192 → EReal) :
    (∑ s : Fin 8, ∑ p : Fin 1024, f ⟨1024 * s.val + p.val, by have := s.isLt; have := p.isLt; omega⟩)
        * Ideal.ofBits .f32 0x39000000#32
      = Ideal.div (Ideal.ofBits .f32 0x00000000#32 + ∑ t : Fin 8192, f t) (Ideal.ofBits .f32 0x46000000#32) := by
  rw [ofBits_8192, Ideal.div_coe (by norm_num : (8192 : ℝ) ≠ 0), ofBits_inv_8192, Ideal.ofBits_zero_f32, zero_add]
  exact congrArg (· * ((1 / 8192 : ℝ) : EReal)) (sum_tiles 8 1024 f)

end Cert.TileSum

end
-- ==== Proof.Payload.lean ====
/-
  What the kernel body's three stores hold, read at an index of the (1, 512) output block, at the ideal values.

  One grid point holds a tile of 1024 rows of `x` (`x0`), the 512 rows of `W` of one block of neurons (`x1`) and their
  biases (`x2`). Its pre-activation at row `p` and neuron `q` is `∑ k, x0 p k * x1 q k + x2 0 q`: the matrix product with
  the transposed weight block, into a zero accumulator, plus the bias row broadcast down the rows (the two
  narrowings to bf16 are the identity on exact values). The store of the running sum holds, at neuron `q`,
  what the block held before plus the sum over the tile's rows of gelu of the pre-activation; the reset holds zero;
  the last store holds the block scaled by `2⁻¹³`.
-/
import proofs.«153082_j4758823764049_1_alg».proof.Proof.Gen.KernelIdeal.Skeleton
import proofs.«153082_j4758823764049_1_alg».proof.Proof.TileSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The matrix product at an index -/

/-- The left operand's row is the output's row. -/
theorem lhs_row (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
/-- The left operand's column is the contraction position. -/
theorem lhs_contr (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
/-- The right operand's row is the contraction position. -/
theorem rhs_contr (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
/-- The right operand's column is the output's column. -/
theorem rhs_col (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- A (1024, 1024) by (1024, 512) product into the zero accumulator, at `(p, q)`: the sum over `k` of `a p k * b k q`. -/
theorem matmul_at (a : FVec Ideal S1024x1024 .bf16) (b : FVec Ideal S1024x512 .bf16) (p : Fin 1024) (q : Fin 512) :
    matmul (F := Ideal) dot_S1024x1024_S1024x512_S1024x512_1_0_0_1_n_n none a b (constant S1024x512 .f32 0x00000000#32) (ix2 p q)
      = ∑ k : Fin 1024, a (ix2 p k) * b (ix2 k q) := by
  simp only [matmul]
  rw [Ideal.matmul_constant_zero_apply, ← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun a => Fin.ext (by
    match a with
    | ⟨0, _⟩ => exact lhs_row _ _
    | ⟨1, _⟩ => exact (lhs_contr _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun a => Fin.ext (by
    match a with
    | ⟨0, _⟩ => exact (rhs_contr _ _).trans hk
    | ⟨1, _⟩ => exact rhs_col _ _)
  rw [el, er]

/-! ## One tile's pre-activation and its gelu, as vectors and at an index -/

/-- The tile's pre-activation as the body computes it: the product with the transposed weight block plus the broadcast bias row. -/
def pre (x0 : Vec Ideal S1024x1024 .f32) (x1 : Vec Ideal S512x1024 .f32) (x2 : Vec Ideal S1x512 .f32) : FVec Ideal S1024x512 .f32 :=
  addf (matmul dot_S1024x1024_S1024x512_S1024x512_1_0_0_1_n_n none (truncf .bf16 x0 bitsLt_bf16_f32)
      (transpose S1024x512 [1, 0] (truncf .bf16 x1 bitsLt_bf16_f32) transposes_S512x1024_p1_0_S1024x512) (constant S1024x512 .f32 0x00000000#32))
    (broadcastTo S1024x512 (shapeCast S1x512 x2 shapeCasts_S1x512_S1x512) broadcasts_S1x512_S1024x512)

/-- The pre-activation of row `p` of the tile and neuron `q` of the block. -/
def preact (x0 : Vec Ideal S1024x1024 .f32) (x1 : Vec Ideal S512x1024 .f32) (x2 : Vec Ideal S1x512 .f32) (p : Fin 1024) (q : Fin 512) : EReal :=
  (∑ k : Fin 1024, x0 (ix2 p k) * x1 (ix2 q k)) + x2 (ix2 (0 : Fin 1) q)

theorem pre_apply (x0 : Vec Ideal S1024x1024 .f32) (x1 : Vec Ideal S512x1024 .f32) (x2 : Vec Ideal S1x512 .f32) (p : Fin 1024) (q : Fin 512) :
    pre x0 x1 x2 (ix2 p q) = preact x0 x1 x2 p q := by
  unfold pre preact
  rw [addf_apply, matmul_at, broadcastTo_1b_ab_apply, shapeCast_self]
  refine congrArg (· + x2 (ix2 (0 : Fin 1) q)) (Finset.sum_congr rfl fun k _ => ?_)
  rw [transpose_ix2_apply]
  rfl

/-- Gelu applied to every entry, as the body spells it. -/
def geluVec (v : FVec Ideal S1024x512 .f32) : FVec Ideal S1024x512 .f32 :=
  mulf v (mulf (broadcast S1024x512 (Scalar.ofBits .f32 0x3F000000#32)) (addf (broadcast S1024x512 (Scalar.ofBits .f32 0x3F800000#32))
    (tanh (mulf (broadcast S1024x512 (Scalar.ofBits .f32 0x3F4C422A#32)) (addf v (mulf (broadcast S1024x512 (Scalar.ofBits .f32 0x3D372713#32)) (mulf v (mulf v v))))))))

theorem geluVec_apply (v : FVec Ideal S1024x512 .f32) (i : S1024x512.Idx) : geluVec v i = TileSum.gelu (v i) := rfl

/-- The sum over the tile's rows of gelu of the pre-activation, at neuron `q` of the block. -/
def tileSum (x0 : Vec Ideal S1024x1024 .f32) (x1 : Vec Ideal S512x1024 .f32) (x2 : Vec Ideal S1x512 .f32) (q : Fin 512) : EReal :=
  ∑ p : Fin 1024, TileSum.gelu (preact x0 x1 x2 p q)

/-! ## The three stores -/

/-- The reset store holds zero. -/
theorem pay1_apply (j : S1x512.Idx) : k0_pay1 (F := Ideal) j = 0 := by
  show Ideal.ofBits .f32 0x00000000#32 = 0
  exact Ideal.ofBits_zero_f32

/-- The running-sum store, as one vector term over the tile's pre-activation. -/
theorem pay2_eq (x0 : Vec Ideal S1024x1024 .f32) (x1 : Vec Ideal S512x1024 .f32) (x2 : Vec Ideal S1x512 .f32) (acc : Vec Ideal S1x512 .f32) :
    k0_pay2 (F := Ideal) x0 x1 x2 acc
      = addf (shapeCast S1x512 acc shapeCasts_S1x512_S1x512)
          (shapeCast S1x512 (multiReduction .add [0] S512 (geluVec (pre x0 x1 x2)) 0x00000000#32 reduces_S1024x512_S512 (.inl rfl) rfl) shapeCasts_S512_S1x512) := rfl

/-- The running-sum store at neuron `q`: what the block held plus the tile's sum. -/
theorem pay2_apply (x0 : Vec Ideal S1024x1024 .f32) (x1 : Vec Ideal S512x1024 .f32) (x2 : Vec Ideal S1x512 .f32) (acc : Vec Ideal S1x512 .f32)
    (u : Fin 1) (q : Fin 512) :
    k0_pay2 (F := Ideal) x0 x1 x2 acc (ix2 u q) = acc (ix2 u q) + tileSum x0 x1 x2 q := by
  rw [pay2_eq, addf_apply, shapeCast_self, shapeCast_a_1a_apply]
  refine congrArg (acc (ix2 u q) + ·) ?_
  refine (Ideal.multiReduction_add_single (geluVec (pre x0 x1 x2)) 0x00000000#32 reduces_S1024x512_S512 (.inl rfl) rfl (ix1 q)).trans ?_
  refine Finset.sum_congr rfl fun (p : Fin 1024) _ => ?_
  have hl : reduces_S1024x512_S512.lift (ix1 q) p = ix2 p q := funext fun a => Fin.ext (by
    match a with
    | ⟨0, _⟩ => rfl
    | ⟨1, _⟩ => rfl)
  rw [hl]
  exact (geluVec_apply (pre x0 x1 x2) (ix2 p q)).trans (congrArg TileSum.gelu (pre_apply x0 x1 x2 p q))

/-- The last store at an index: the block scaled by the word `0x39000000`. -/
theorem pay3_apply (v : Vec Ideal S1x512 .f32) (j : S1x512.Idx) :
    k0_pay3 (F := Ideal) v j = v j * Ideal.ofBits .f32 0x39000000#32 := by
  show mulf (shapeCast S1x512 v shapeCasts_S1x512_S1x512) (broadcast S1x512 (Scalar.ofBits (F := Ideal) .f32 0x39000000#32)) j = _
  rw [shapeCast_self]
  rfl

end Cert.KernelIdeal.Payload

end
-- ==== Proof.Blocks.lean ====
/-
  The input blocks of a grid point, read off the argument arrays.

  The grid is 8 blocks of neurons by 8 tiles of rows, the tile coordinate moving fastest: point `n` works on neuron block
  `n / 8` and row tile `n % 8`. Its block of `x` is rows `1024 (n % 8) …` of `x`, its block of `W` is rows `512 (n / 8) …` of
  `W`, and its bias block is entries `512 (n / 8) …` of `b` (seen through the reshape of `b` to one row). So the sum the
  point adds at neuron `q` of its block is the sum, over the tile's rows `t`, of gelu of
  `∑ k, x t k * W n' k + b n'` at `n' = 512 (n / 8) + q`.
-/
import proofs.«153082_j4758823764049_1_alg».proof.Proof.Gen.KernelIdeal.Value
import proofs.«153082_j4758823764049_1_alg».proof.Proof.Payload
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- Row `p` of point `n`'s tile, as a row of `x`. -/
def rowOf (n : ℕ) (p : Fin 1024) : Fin 8192 := ⟨1024 * (n % 8) + p.val, by have := p.isLt; omega⟩
/-- Neuron `q` of point `n`'s block, as a neuron (for `n` on the grid, `n / 8 % 8 = n / 8`). -/
def colOf (n : ℕ) (q : Fin 512) : Fin 4096 := ⟨512 * (n / 8 % 8) + q.val, by have := q.isLt; omega⟩

/-- The three input index maps over the grid: the tile of `x` follows `n % 8`, the blocks of `W` and of the bias `n / 8`. -/
theorem idx_facts : ∀ t : Fin cfg0.N,
    win0_0.index t (0 : Fin 2) = t.val % 8 ∧ win0_0.index t (1 : Fin 2) = 0
    ∧ win0_1.index t (0 : Fin 2) = t.val / 8 ∧ win0_1.index t (1 : Fin 2) = 0
    ∧ win0_2.index t (0 : Fin 2) = 0 ∧ win0_2.index t (1 : Fin 2) = t.val / 8 :=
  (by decide +kernel : ∀ t : Fin grid0.N, _)

/-- The point's block of `x`, of `W` and of the bias row, at their literal shapes. -/
abbrev xblk (c : Dev nD) (t : Fin cfg0.N) : Vec Ideal S1024x1024 .f32 := iblk m c 0 t
abbrev wblk (c : Dev nD) (t : Fin cfg0.N) : Vec Ideal S512x1024 .f32 := iblk m c 1 t
abbrev bblk (c : Dev nD) (t : Fin cfg0.N) : Vec Ideal S1x512 .f32 := iblk m c 2 t

/-- The block of `x` at `(p, k)` is `x` at the tile's row `p` and column `k`. -/
theorem xblk_apply (c : Dev nD) (t : Fin cfg0.N) (p k : Fin 1024) :
    xblk m c t (ix2 p k) = m ((c : Thread nD τ).loc main_arg0) (ix2 (rowOf t.val p) k) := by
  obtain ⟨e0, e1, -⟩ := idx_facts t
  show V m c main_arg0 (((cfg0.win 0).blk t).view.emb (ix2 p k)) = _
  rw [V_main_arg0]
  refine congrArg (m ((c : Thread nD τ).loc main_arg0)) (funext fun a => Fin.ext ?_)
  match a with
  | ⟨0, _⟩ =>
    show win0_0.index t (0 : Fin 2) * 1024 + 1 * p.val = 1024 * (t.val % 8) + p.val
    omega
  | ⟨1, _⟩ =>
    show win0_0.index t (1 : Fin 2) * 1024 + 1 * k.val = k.val
    omega

/-- The block of `W` at `(q, k)` is `W` at the block's neuron `q` and column `k`. -/
theorem wblk_apply (c : Dev nD) (t : Fin cfg0.N) (q : Fin 512) (k : Fin 1024) :
    wblk m c t (ix2 q k) = m ((c : Thread nD τ).loc main_arg1) (ix2 (colOf t.val q) k) := by
  obtain ⟨-, -, e0, e1, -⟩ := idx_facts t
  have hN := lt_of_lt_of_eq t.isLt (show cfg0.N = 64 from N_0)
  show V m c main_arg1 (((cfg0.win 1).blk t).view.emb (ix2 q k)) = _
  rw [V_main_arg1]
  refine congrArg (m ((c : Thread nD τ).loc main_arg1)) (funext fun a => Fin.ext ?_)
  match a with
  | ⟨0, _⟩ =>
    show win0_1.index t (0 : Fin 2) * 512 + 1 * q.val = 512 * (t.val / 8 % 8) + q.val
    omega
  | ⟨1, _⟩ =>
    show win0_1.index t (1 : Fin 2) * 1024 + 1 * k.val = k.val
    omega

/-- The bias row the region finds is `b` laid out as one row. -/
theorem bias_row (c : Dev nD) :
    (V m c main_v0 : S1x4096.Idx → EReal) = shapeCast S1x4096 (m ((c : Thread nD τ).loc main_arg2)) shapeCasts_S4096_S1x4096 := by
  dsimp only [V, hostOps0]
  after_results
  rfl

/-- The bias block at `(0, q)` is `b` at the block's neuron `q`. -/
theorem bblk_apply (c : Dev nD) (t : Fin cfg0.N) (q : Fin 512) :
    bblk m c t (ix2 (0 : Fin 1) q) = m ((c : Thread nD τ).loc main_arg2) (ix1 (colOf t.val q)) := by
  obtain ⟨-, -, -, -, e0, e1⟩ := idx_facts t
  have hN := lt_of_lt_of_eq t.isLt (show cfg0.N = 64 from N_0)
  show (V m c main_v0 : S1x4096.Idx → EReal) (((cfg0.win 2).blk t).view.emb (ix2 (0 : Fin 1) q)) = _
  rw [bias_row]
  have hi : ((cfg0.win 2).blk t).view.emb (ix2 (0 : Fin 1) q) = ix2 (0 : Fin 1) (colOf t.val q) := funext fun a => Fin.ext (by
    match a with
    | ⟨0, _⟩ =>
      show win0_2.index t (0 : Fin 2) * 1 + 1 * 0 = 0
      omega
    | ⟨1, _⟩ =>
      show win0_2.index t (1 : Fin 2) * 512 + 1 * q.val = 512 * (t.val / 8 % 8) + q.val
      omega)
  rw [hi, shapeCast_a_1a_apply]

/-- The sum one grid point adds at neuron `q` of its block, over the argument arrays: a function of the point's NUMBER
    (any natural, through `rowOf` and `colOf`). -/
def arrTile (X : Vec Ideal S8192x1024 .f32) (W : Vec Ideal S4096x1024 .f32) (B : Vec Ideal S4096 .f32) (n : ℕ) (q : Fin 512) : EReal :=
  ∑ p : Fin 1024, TileSum.gelu ((∑ k : Fin 1024, X (ix2 (rowOf n p) k) * W (ix2 (colOf n q) k)) + B (ix1 (colOf n q)))

/-- The tile sum over a point's blocks is that function at the point's number. -/
theorem tileSum_blocks (c : Dev nD) (t : Fin cfg0.N) (q : Fin 512) :
    Payload.tileSum (xblk m c t) (wblk m c t) (bblk m c t) q
      = arrTile (m ((c : Thread nD τ).loc main_arg0)) (m ((c : Thread nD τ).loc main_arg1)) (m ((c : Thread nD τ).loc main_arg2)) t.val q := by
  unfold Payload.tileSum Payload.preact arrTile
  refine Finset.sum_congr rfl fun p _ => congrArg TileSum.gelu ?_
  rw [bblk_apply]
  refine congrArg (· + _) (Finset.sum_congr rfl fun k _ => ?_)
  rw [xblk_apply, wblk_apply]

end Cert.KernelIdeal.Blocks

end
-- ==== Proof.MeanGelu.lean ====
/-
  The function both programs compute: for neuron `n`, the mean over the 8192 rows `t` of gelu of
  `∑ k, x t k * W n k + b n`, the mean spelt as the reference spells it (zero plus the sum, divided by `8192`).
  Stated over the arrays' literal shapes, so that each program's proof reads its own result against it.
-/
import proofs.«153082_j4758823764049_1_alg».proof.Proof.TileSum
import Idealize.ShloMosaic.Lib.ValueIdx

noncomputable section

namespace Cert.MeanGelu

open Idealize.ShloMosaic Idealize.ShloMosaic.ValueIdx

/-- Gelu of row `t`'s pre-activation at neuron `n`. -/
def rowAct (X : (⟨2, ![8192, 1024]⟩ : Shape).Idx → EReal) (W : (⟨2, ![4096, 1024]⟩ : Shape).Idx → EReal)
    (B : (⟨1, ![4096]⟩ : Shape).Idx → EReal) (n : Fin 4096) (t : Fin 8192) : EReal :=
  TileSum.gelu ((∑ k : Fin 1024, X (ix2 t k) * W (ix2 n k)) + B (ix1 n))

/-- Its mean over the rows. -/
def mean (X : (⟨2, ![8192, 1024]⟩ : Shape).Idx → EReal) (W : (⟨2, ![4096, 1024]⟩ : Shape).Idx → EReal)
    (B : (⟨1, ![4096]⟩ : Shape).Idx → EReal) (n : Fin 4096) : EReal :=
  Ideal.div (Ideal.ofBits .f32 0x00000000#32 + ∑ t : Fin 8192, rowAct X W B n t) (Ideal.ofBits .f32 0x46000000#32)

/-- The one-row result array: the mean at each neuron. -/
def result (X : (⟨2, ![8192, 1024]⟩ : Shape).Idx → EReal) (W : (⟨2, ![4096, 1024]⟩ : Shape).Idx → EReal)
    (B : (⟨1, ![4096]⟩ : Shape).Idx → EReal) : (⟨2, ![1, 4096]⟩ : Shape).Idx → EReal :=
  fun i => mean X W B (i 1)

/-- The eight tiles' sums, added up and scaled by `2⁻¹³`, are the mean. -/
theorem scaled_tiles_eq_mean (X : (⟨2, ![8192, 1024]⟩ : Shape).Idx → EReal) (W : (⟨2, ![4096, 1024]⟩ : Shape).Idx → EReal)
    (B : (⟨1, ![4096]⟩ : Shape).Idx → EReal) (n : Fin 4096) :
    (∑ s : Fin 8, ∑ p : Fin 1024, rowAct X W B n ⟨1024 * s.val + p.val, by have := s.isLt; have := p.isLt; omega⟩)
        * Ideal.ofBits .f32 0x39000000#32 = mean X W B n :=
  TileSum.scaled_tile_sums_eq_mean (rowAct X W B n)

end Cert.MeanGelu

end
-- ==== Proof.KernelValue.lean ====
/-
  The kernel's result at an index. The output block of a block of neurons stays in place while the eight row tiles pass:
  the first point resets it to zero and adds its tile's sum, each of the next six adds its own, and the eighth adds its own
  and then scales the block by `2⁻¹³`. So after the eighth point the block holds, at each neuron, the eight tiles' sums
  added up and scaled; the tiles being consecutive runs of 1024 rows, that is the mean over all 8192 rows.
-/
import proofs.«153082_j4758823764049_1_alg».proof.Proof.Blocks
import proofs.«153082_j4758823764049_1_alg».proof.Proof.MeanGelu

noncomputable section

namespace Cert.KernelIdeal.KernelValue

open Cert.KernelIdeal Cert.KernelIdeal.Gen Cert.KernelIdeal.Blocks Idealize.ShloMosaic Idealize.ShloMosaic.TcCoe Idealize.SL.Sem
  Idealize.ShloMosaic.ValueIdx

variable (m : (ℓ : Loc nD τ sig) → Buf (Elt Ideal) ℓ)

/-- What point number `n` adds at place `j` of the output block. -/
def addend (c : Dev nD) (n : ℕ) (j : S1x512.Idx) : EReal :=
  arrTile (m ((c : Thread nD τ).loc main_arg0)) (m ((c : Thread nD τ).loc main_arg1)) (m ((c : Thread nD τ).loc main_arg2)) n (j 1)

/-- The running-sum store over a point's blocks: what the block held plus the point's addend. -/
theorem pay2_blocks (c : Dev nD) (t : Fin cfg0.N) (acc : Vec Ideal S1x512 .f32) (j : S1x512.Idx) :
    k0_pay2 (F := Ideal) (xblk m c t) (wblk m c t) (bblk m c t) acc j = acc j + addend m c t.val j := by
  obtain ⟨u, q, rfl⟩ : ∃ (u : Fin 1) (q : Fin 512), j = ix2 u q := ⟨j 0, j 1, eq_ix2 j⟩
  refine (Payload.pay2_apply (xblk m c t) (wblk m c t) (bblk m c t) acc u q).trans ?_
  exact congrArg (acc (ix2 u q) + ·) (tileSum_blocks m c t q)

/-- The first point of a run leaves zero plus its addend. -/
theorem reset_apply (c : Dev nD) (n : ℕ) (h : n < cfg0.N) (j : S1x512.Idx) :
    Value.reset3 m c n h j = (0 : EReal) + addend m c n j := by
  refine (pay2_blocks m c ⟨n, h⟩ (k0_pay1 (F := Ideal)) j).trans ?_
  rw [Payload.pay1_apply]

/-- A point strictly inside a run adds its addend. -/
theorem step_mid (c : Dev nD) (n : ℕ) (h : n < cfg0.N) (acc : Vec Ideal S1x512 .f32) (j : S1x512.Idx)
    (h0 : ¬n % 8 = 0) (h7 : ¬n % 8 = 7) : Value.step3 m c n h acc j = acc j + addend m c n j := by
  unfold Value.step3
  rw [if_pos ⟨h0, h7⟩]
  exact pay2_blocks m c ⟨n, h⟩ acc j

/-- The last point of a run adds its addend and scales. -/
theorem step_last (c : Dev nD) (n : ℕ) (h : n < cfg0.N) (acc : Vec Ideal S1x512 .f32) (j : S1x512.Idx)
    (h7 : n % 8 = 7) : Value.step3 m c n h acc j = (acc j + addend m c n j) * Ideal.ofBits .f32 0x39000000#32 := by
  unfold Value.step3
  rw [if_neg (fun hh => hh.2 h7), if_pos ⟨by omega, h7⟩]
  refine (Payload.pay3_apply _ j).trans ?_
  exact congrArg (· * Ideal.ofBits .f32 0x39000000#32) (pay2_blocks m c ⟨n, h⟩ acc j)

/-- After the first seven points of run `r` the block holds zero plus their addends. -/
theorem fold_mid (c : Dev nD) (r : ℕ) (h : 8 * r + 6 < cfg0.N) (j : S1x512.Idx) :
    Pipeline.accAt (Value.reset3 m c) (Value.step3 m c) (8 * r) 6 h j = 0 + ∑ s ∈ Finset.range 7, addend m c (8 * r + s) j :=
  Pipeline.accAt_add_apply (ι := S1x512.Idx) (β := EReal) (Value.reset3 m c) (Value.step3 m c) (fun _ => 0) (addend m c) (8 * r) 6
    (fun h i => reset_apply m c (8 * r) h i)
    (fun n h acc i hb he => step_mid m c n h acc i (by omega) (by omega)) 6 (le_refl 6) h j

/-- After all eight points of run `r` the block holds the eight addends' sum, scaled. -/
theorem fold_run (c : Dev nD) (r : ℕ) (h : 8 * r + 7 < cfg0.N) (j : S1x512.Idx) :
    Pipeline.accAt (Value.reset3 m c) (Value.step3 m c) (8 * r) 7 h j
      = (∑ s : Fin 8, addend m c (8 * r + s.val) j) * Ideal.ofBits .f32 0x39000000#32 := by
  show Value.step3 m c (8 * r + 7) h (Pipeline.accAt (Value.reset3 m c) (Value.step3 m c) (8 * r) 6 (Nat.lt_of_succ_lt h)) j = _
  refine (step_last m c (8 * r + 7) h _ j (by omega)).trans ?_
  refine congrArg (· * Ideal.ofBits .f32 0x39000000#32) ?_
  rw [fold_mid m c r _ j, zero_add]
  exact ((Finset.sum_range_succ (fun s => addend m c (8 * r + s) j) 7).symm).trans (Finset.sum_range (fun s => addend m c (8 * r + s) j))

/-- The result array at neuron `n`: the mean over the rows. -/
theorem G3_apply (c : Dev nD) (u : Fin 1) (n : Fin 4096) :
    Value.G3 m c (ix2 u n)
      = MeanGelu.mean (m ((c : Thread nD τ).loc main_arg0)) (m ((c : Thread nD τ).loc main_arg1)) (m ((c : Thread nD τ).loc main_arg2)) n := by
  have hn := n.isLt
  have hu := u.isLt
  have hr : Value.run3Of (ix2 u n) = n.val / 512 := by
    show 8 * (u.val / 1 - 0) + 1 * (n.val / 512 - 0) = n.val / 512
    omega
  have hlt : 8 * Value.run3Of (ix2 u n) + 7 < cfg0.N := by
    rw [hr, show cfg0.N = 64 from N_0]; omega
  unfold Value.G3
  rw [dif_pos hlt]
  refine (fold_run m c (Value.run3Of (ix2 u n)) hlt (Value.loc3Of (ix2 u n))).trans ?_
  rw [← MeanGelu.scaled_tiles_eq_mean]
  refine congrArg (· * Ideal.ofBits .f32 0x39000000#32) (Finset.sum_congr rfl fun s _ => ?_)
  unfold addend arrTile MeanGelu.rowAct
  refine Finset.sum_congr rfl fun p _ => congrArg TileSum.gelu ?_
  have hs := s.isLt
  have hrow : rowOf (8 * Value.run3Of (ix2 u n) + s.val) p = ⟨1024 * s.val + p.val, by have := p.isLt; omega⟩ := Fin.ext (by
    show 1024 * ((8 * Value.run3Of (ix2 u n) + s.val) % 8) + p.val = 1024 * s.val + p.val
    omega)
  have hcol : colOf (8 * Value.run3Of (ix2 u n) + s.val) (Value.loc3Of (ix2 u n) 1) = n := Fin.ext (by
    show 512 * ((8 * Value.run3Of (ix2 u n) + s.val) / 8 % 8) + n.val % 512 = n.val
    rw [hr]; omega)
  rw [hrow, hcol]

/-- The whole result array is the shared function of the arguments. -/
theorem G3_eq (c : Dev nD) :
    Value.G3 m c
      = MeanGelu.result (m ((c : Thread nD τ).loc main_arg0)) (m ((c : Thread nD τ).loc main_arg1)) (m ((c : Thread nD τ).loc main_arg2)) := by
  funext i
  obtain ⟨u, n, rfl⟩ : ∃ (u : Fin 1) (n : Fin 4096), i = ix2 u n := ⟨i 0, i 1, eq_ix2 (n0 := 1) (n1 := 4096) i⟩
  exact G3_apply m c u n

end Cert.KernelIdeal.KernelValue

end
-- ==== Proof.RefValue.lean ====
/-
  The reference's result at an index. Its program is a chain of whole-array operations: the product `x · Wᵀ` contracted
  over the 1024 columns, the bias broadcast down the rows, gelu entry by entry (the cube spelt `(s * s) * s`), the sum
  over the rows from zero, and the quotient by `8192`. Read at neuron `n` of the one-row result, stage by stage, that is
  the mean over the rows of gelu of `∑ k, x t k * W n k + b n`.
-/
import proofs.«153082_j4758823764049_1_alg».proof.Proof.Gen.ReferenceIdeal.Read
import proofs.«153082_j4758823764049_1_alg».proof.Proof.MeanGelu

noncomputable section

namespace Cert.ReferenceIdeal.RefValue

open Cert.ReferenceIdeal Cert.ReferenceIdeal.Gen Cert.ReferenceIdeal.Read Idealize.ShloMosaic Idealize.ShloMosaic.ValueIdx

variable (x0 : (⟨S8192x1024, .f32⟩ : BufTy).Contents (Elt Ideal)) (x1 : (⟨S4096x1024, .f32⟩ : BufTy).Contents (Elt Ideal))
  (x2 : (⟨S4096, .f32⟩ : BufTy).Contents (Elt Ideal))

/-- The pre-activation stage at `(t, n)`: the contraction over the columns plus the bias of neuron `n`. -/
theorem preact_apply (t : Fin 8192) (n : Fin 4096) :
    val_main_v3 (F := Ideal) x0 x1 x2 (ix2 t n) = (∑ k : Fin 1024, x0 (ix2 t k) * x1 (ix2 n k)) + x2 (ix1 n) := by
  rw [val_main_v3_apply, val_main_v0_apply, val_main_v2_apply, val_main_v1_apply]
  refine congrArg₂ (· + ·) (Finset.sum_congr rfl fun k _ => congrArg₂ (· * ·) (congrArg x0 ?_) (congrArg x1 ?_)) (congrArg x2 ?_)
  · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

/-- The activation stage at an index is gelu of the pre-activation stage there. -/
theorem act_apply (j : S8192x4096.Idx) :
    val_main_v16 (F := Ideal) x0 x1 x2 j = TileSum.gelu (val_main_v3 (F := Ideal) x0 x1 x2 j) := by
  rw [val_main_v16_apply, val_main_v15_apply, val_main_v14_apply, val_main_cst_2_apply, val_main_v13_apply, val_main_v12_apply,
    val_main_cst_1_apply, val_main_v11_apply, val_main_v10_apply, val_main_v9_apply, val_main_cst_0_apply, val_main_v8_apply,
    val_main_v7_apply, val_main_v6_apply, val_main_cst_apply, val_main_v5_apply, val_main_v4_apply]
  exact TileSum.gelu_cube_comm _

/-- The result at neuron `n`: the mean over the rows. -/
theorem result_apply (u : Fin 1) (n : Fin 4096) :
    val_main_v20 (F := Ideal) x0 x1 x2 (ix2 u n) = MeanGelu.mean x0 x1 x2 n := by
  rw [val_main_v20_apply, val_main_v18_apply, val_main_v17_apply, val_main_v19_apply, val_main_cst_4_apply, val_main_cst_3_apply]
  unfold MeanGelu.mean
  refine congrArg (fun z => Ideal.div (Ideal.ofBits .f32 0x00000000#32 + z) (Ideal.ofBits .f32 0x46000000#32)) (Finset.sum_congr rfl fun t _ => ?_)
  have hj : idx_main_v17 (idx_main_v18 (ix2 u n)) t = ix2 t n := funext fun a => Fin.ext (by match a with | ⟨0, _⟩ => rfl | ⟨1, _⟩ => rfl)
  rw [hj, act_apply, preact_apply]
  rfl

/-- The whole result array is the shared function of the arguments. -/
theorem result_eq : val_main_v20 (F := Ideal) x0 x1 x2 = MeanGelu.result x0 x1 x2 := by
  funext i
  obtain ⟨u, n, rfl⟩ : ∃ (u : Fin 1) (n : Fin 4096), i = ix2 u n := ⟨i 0, i 1, eq_ix2 i⟩
  exact result_apply x0 x1 x2 u n

end Cert.ReferenceIdeal.RefValue

end
-- ==== Proof.lean ====
/-
  The mean over 8192 rows of gelu (x · Wᵀ + b), neuron by neuron: a tiled kernel against whole-array operations.

  The kernel walks a grid of 8 blocks of 512 neurons by 8 tiles of 1024 rows. At each point it forms the tile's
  pre-activations `∑ k, x t k * W n k + b n` (a matrix product with the transposed weight block into a zero accumulator,
  plus the bias row), applies the tanh form of gelu, sums over the tile's rows and adds the sum into the output block,
  which stays in place for the eight tiles of a neuron block: reset to zero at the first tile, scaled by `2⁻¹³` after the
  last. The reference forms all 8192 × 4096 pre-activations at once, applies the same gelu (its cube spelt in the other
  order), sums each column from zero and divides by `8192`.

  On the extended reals the two are one function of the arguments (Proof/MeanGelu.lean): a sum over 8192 rows is the sum
  of the sums over its eight runs of 1024 rows, and dividing by `8192` is multiplying by `2⁻¹³`
  (Proof/TileSum.lean). The kernel's side is read off the fold its eight points leave in the output block
  (Proof/Payload.lean: the stores at an index; Proof/Blocks.lean: a point's blocks as pieces of the arrays;
  Proof/KernelValue.lean: the fold unrolled), the reference's side stage by stage (Proof/RefValue.lean). No step uses
  that the inputs are finite. The three programs terminate without fault and leave their arguments unchanged by their
  runs; the idealized kernel is the kernel's own text read at the ideal values, so there is nothing to preserve.
-/
import proofs.«153082_j4758823764049_1_alg».proof.Defs
import proofs.«153082_j4758823764049_1_alg».proof.Proof.Gen.Kernel.Frame
import proofs.«153082_j4758823764049_1_alg».proof.Proof.Gen.KernelIdeal.Value
import proofs.«153082_j4758823764049_1_alg».proof.Proof.Gen.Pre_finite_inputs
import proofs.«153082_j4758823764049_1_alg».proof.Proof.Gen.ReferenceIdeal.Run
import proofs.«153082_j4758823764049_1_alg».proof.Proof.KernelValue
import proofs.«153082_j4758823764049_1_alg».proof.Proof.RefValue
import Idealize.ShloMosaic.Adequacy
import Idealize.ShloMosaic.Init

noncomputable section

namespace Cert.Proof

open Idealize.ShloMosaic Idealize.SL.Sem

/-- The idealized kernel's run, with the result forgotten. -/
theorem frame_KernelIdeal : frame_KernelIdeal := fun m ρ _ =>
  (θ_run Cert.KernelIdeal.defs _ _).mono (fun _ h c => (h c).2) (Cert.KernelIdeal.Value.run (F := Ideal) m ρ)

/-- The reference's run, with the result forgotten. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on `x`, `W` and `b` both programs end with the mean over the rows of gelu of the
    pre-activation at every neuron: the kernel's result array is that function of its arguments (`G3_eq`), and so is
    the reference's last stage (`result_eq`). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.KernelIdeal.KernelValue.G3_eq]
  exact (Cert.ReferenceIdeal.Read.val_main_v20_eq _ _ _).trans (Cert.ReferenceIdeal.RefValue.result_eq _ _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
